-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩

class Facts : Prop where
  bcast_S_S8x256x52x52 : S_.BroadcastsInDim S8x256x52x52 (![] : Fin 0 → Fin S8x256x52x52.rank)
  reducesTo_S8x256x52x52_S_d0_1_2_3 : S8x256x52x52.ReducesTo [0, 1, 2, 3] S_
  h_S_ : 0 < S_.numel
  bcast_S_S2304x512 : S_.BroadcastsInDim S2304x512 (![] : Fin 0 → Fin S2304x512.rank)
  reducesTo_S2304x512_S_d0_1 : S2304x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x256x52x52 .f32) (main_arg1 : FVec F S2304x512 .f32) (main_arg2 : FVec F S512 .f32) : IVec S_ 1 :=
  let main_v0 : FVec F S8x256x52x52 .f32 := Host.absf main_arg0
  let main_cst : FVec F S_ .f32 := constant S_ .f32 0x7F800000#32
  let main_v1 : FVec F S8x256x52x52 .f32 := broadcastInDim S8x256x52x52 ![] bcast_S_S8x256x52x52 main_cst
  let main_v2 : IVec S8x256x52x52 1 := cmpf .olt main_v0 main_v1
  let main_c : IVec S_ 1 := constantI S_ 1 1#1
  let main_v3 : IVec S_ 1 := (fun x v => Host.reduce IntOp.andi x v reducesTo_S8x256x52x52_S_d0_1_2_3 h_S_) main_v2 main_c
  let main_v4 : FVec F S2304x512 .f32 := Host.absf main_arg1
  let main_cst_0 : FVec F S_ .f32 := constant S_ .f32 0x7F800000#32
  let main_v5 : FVec F S2304x512 .f32 := broadcastInDim S2304x512 ![] bcast_S_S2304x512 main_cst_0
  let main_v6 : IVec S2304x512 1 := cmpf .olt main_v4 main_v5
  let main_c_1 : IVec S_ 1 := constantI S_ 1 1#1
  let main_v7 : IVec S_ 1 := (fun x v => Host.reduce IntOp.andi x v reducesTo_S2304x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩
abbrev S8x256x54x54 : Shape := ⟨4, ![8, 256, 54, 54]⟩
abbrev S1x8x256x52x52 : Shape := ⟨5, ![1, 8, 256, 52, 52]⟩
abbrev S9x8x256x52x52 : Shape := ⟨5, ![9, 8, 256, 52, 52]⟩
abbrev S3x3x8x256x52x52 : Shape := ⟨6, ![3, 3, 8, 256, 52, 52]⟩
abbrev S8x52x52x256x3x3 : Shape := ⟨6, ![8, 52, 52, 256, 3, 3]⟩
abbrev S21632x2304 : Shape := ⟨2, ![21632, 2304]⟩
abbrev S1x512 : Shape := ⟨2, ![1, 512]⟩
abbrev S21632x512 : Shape := ⟨2, ![21632, 512]⟩
abbrev S832x2304 : Shape := ⟨2, ![832, 2304]⟩
abbrev S832x512 : Shape := ⟨2, ![832, 512]⟩
abbrev S8x52x52x512 : Shape := ⟨4, ![8, 52, 52, 512]⟩
abbrev S8x512x52x52 : Shape := ⟨4, ![8, 512, 52, 52]⟩

abbrev nBuf : Space → Nat
  | .hbm => 49
  | .vmem => 6
  | .smem => 0
  | _ => 0

abbrev bufTy : (tb : Table) → Fin (tcTables nBuf tb) → BufTy
  | .hbm, ⟨0, _⟩ => ⟨S8x256x52x52, .f32⟩
  | .hbm, ⟨1, _⟩ => ⟨S2304x512, .f32⟩
  | .hbm, ⟨2, _⟩ => ⟨S512, .f32⟩
  | .hbm, ⟨3, _⟩ => ⟨S_, .f32⟩
  | .hbm, ⟨4, _⟩ => ⟨S8x256x52x52, .f32⟩
  | .hbm, ⟨5, _⟩ => ⟨S8x256x52x52, .f32⟩
  | .hbm, ⟨6, _⟩ => ⟨S8x256x52x52, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x256x52x52, .f32⟩
  | .hbm, ⟨11, _⟩ => ⟨S8x256x52x52, .f32⟩
  | .hbm, ⟨12, _⟩ => ⟨S_, .f32⟩
  | .hbm, ⟨13, _⟩ => ⟨S8x256x52x52, .f32⟩
  | .hbm, ⟨14, _⟩ => ⟨S8x256x52x52, .f32⟩
  | .hbm, ⟨15, _⟩ => ⟨S_, .i32⟩
  | .hbm, ⟨16, _⟩ => ⟨S_, .f32⟩
  | .hbm, ⟨17, _⟩ => ⟨S8x256x54x54, .f32⟩
  | .hbm, ⟨18, _⟩ => ⟨S8x256x52x52, .f32⟩
  | .hbm, ⟨19, _⟩ => ⟨S8x256x52x52, .f32⟩
  | .hbm, ⟨20, _⟩ => ⟨S8x256x52x52, .f32⟩
  | .hbm, ⟨21, _⟩ => ⟨S8x256x52x52, .f32⟩
  | .hbm, ⟨22, _⟩ => ⟨S8x256x52x52, .f32⟩
  | .hbm, ⟨23, _⟩ => ⟨S8x256x52x52, .f32⟩
  | .hbm, ⟨24, _⟩ => ⟨S8x256x52x52, .f32⟩
  | .hbm, ⟨25, _⟩ => ⟨S8x256x52x52, .f32⟩
  | .hbm, ⟨26, _⟩ => ⟨S8x256x52x52, .f32⟩
  | .hbm, ⟨27, _⟩ => ⟨S1x8x256x52x52, .f32⟩
  | .hbm, ⟨28, _⟩ => ⟨S1x8x256x52x52, .f32⟩
  | .hbm, ⟨29, _⟩ => ⟨S1x8x256x52x52, .f32⟩
  | .hbm, ⟨30, _⟩ => ⟨S1x8x256x52x52, .f32⟩
  | .hbm, ⟨31, _⟩ => ⟨S1x8x256x52x52, .f32⟩
  | .hbm, ⟨32, _⟩ => ⟨S1x8x256x52x52, .f32⟩
  | .hbm, ⟨33, _⟩ => ⟨S1x8x256x52x52, .f32⟩
  | .hbm, ⟨34, _⟩ => ⟨S1x8x256x52x52, .f32⟩
  | .hbm, ⟨35, _⟩ => ⟨S1x8x256x52x52, .f32⟩
  | .hbm, ⟨36, _⟩ => ⟨S9x8x256x52x52, .f32⟩
  | .hbm, ⟨37, _⟩ => ⟨S3x3x8x256x52x52, .f32⟩
  | .hbm, ⟨38, _⟩ => ⟨S8x52x52x256x3x3, .f32⟩
  | .hbm, ⟨39, _⟩ => ⟨S21632x2304, .f32⟩
  | .hbm, ⟨40, _⟩ => ⟨S_, .f32⟩
  | .hbm, ⟨41, _⟩ => ⟨S21632x2304, .f32⟩
  | .hbm, ⟨42, _⟩ => ⟨S21632x2304, .f32⟩
  | .hbm, ⟨43, _⟩ => ⟨S21632x2304, .bf16⟩
  | .hbm, ⟨44, _⟩ => ⟨S2304x512, .bf16⟩
  | .hbm, ⟨45, _⟩ => ⟨S1x512, .f32⟩
  | .hbm, ⟨46, _⟩ => ⟨S21632x512, .f32⟩
  | .hbm, ⟨47, _⟩ => ⟨S8x52x52x512, .f32⟩
  | .hbm, ⟨48, _⟩ => ⟨S8x512x52x52, .f32⟩
  | .local _ .vmem, ⟨0, _⟩ => ⟨S832x2304, .bf16⟩
  | .local _ .vmem, ⟨1, _⟩ => ⟨S832x2304, .bf16⟩
  | .local _ .vmem, ⟨2, _⟩ => ⟨S2304x512, .bf16⟩
  | .local _ .vmem, ⟨3, _⟩ => ⟨S1x512, .f32⟩
  | .local _ .vmem, ⟨4, _⟩ => ⟨S832x512, .f32⟩
  | .local _ .vmem, ⟨5, _⟩ => ⟨S832x512, .f32⟩
  | _, _ => ⟨S8x256x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_c : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x256x52x52 : S_.BroadcastsInDim S8x256x52x52 (![] : Fin 0 → Fin S8x256x52x52.rank)
  pads_S8x256x52x52_S8x256x54x54_000_000_110_110 : S8x256x52x52.Pads (![0, 0, 1, 1] : Fin 4 → Nat) ![0, 0, 1, 1] ![0, 0, 0, 0] S8x256x54x54
  h_S_ : 0 < S_.numel
  slices_S8x256x54x54_S8x256x52x52_0_0_0_0 : S8x256x54x54.Slices ![0, 0, 0, 0] S8x256x52x52
  slices_S8x256x54x54_S8x256x52x52_0_0_0_1 : S8x256x54x54.Slices ![0, 0, 0, 1] S8x256x52x52
  slices_S8x256x54x54_S8x256x52x52_0_0_0_2 : S8x256x54x54.Slices ![0, 0, 0, 2] S8x256x52x52
  slices_S8x256x54x54_S8x256x52x52_0_0_1_0 : S8x256x54x54.Slices ![0, 0, 1, 0] S8x256x52x52
  slices_S8x256x54x54_S8x256x52x52_0_0_1_1 : S8x256x54x54.Slices ![0, 0, 1, 1] S8x256x52x52
  slices_S8x256x54x54_S8x256x52x52_0_0_1_2 : S8x256x54x54.Slices ![0, 0, 1, 2] S8x256x52x52
  slices_S8x256x54x54_S8x256x52x52_0_0_2_0 : S8x256x54x54.Slices ![0, 0, 2, 0] S8x256x52x52
  slices_S8x256x54x54_S8x256x52x52_0_0_2_1 : S8x256x54x54.Slices ![0, 0, 2, 1] S8x256x52x52
  slices_S8x256x54x54_S8x256x52x52_0_0_2_2 : S8x256x54x54.Slices ![0, 0, 2, 2] S8x256x52x52
  bcast_S8x256x52x52_S1x8x256x52x52_1_2_3_4 : S8x256x52x52.BroadcastsInDim S1x8x256x52x52 (![1, 2, 3, 4] : Fin 4 → Fin S1x8x256x52x52.rank)
  concatenates_S1x8x256x52x52_S1x8x256x52x52_S1x8x256x52x52_S1x8x256x52x52_S1x8x256x52x52_S1x8x256x52x52_S1x8x256x52x52_S1x8x256x52x52_S1x8x256x52x52_S9x8x256x52x52_d0 : Shape.Concatenates [S1x8x256x52x52, S1x8x256x52x52, S1x8x256x52x52, S1x8x256x52x52, S1x8x256x52x52, S1x8x256x52x52, S1x8x256x52x52, S1x8x256x52x52, S1x8x256x52x52] S9x8x256x52x52 0
  shapeCasts_S9x8x256x52x52_S3x3x8x256x52x52 : S9x8x256x52x52.ShapeCasts S3x3x8x256x52x52
  transposes_S3x3x8x256x52x52_S8x52x52x256x3x3_2_4_5_3_0_1 : S3x3x8x256x52x52.Transposes [2, 4, 5, 3, 0, 1] S8x52x52x256x3x3
  shapeCasts_S8x52x52x256x3x3_S21632x2304 : S8x52x52x256x3x3.ShapeCasts S21632x2304
  bcast_S_S21632x2304 : S_.BroadcastsInDim S21632x2304 (![] : Fin 0 → Fin S21632x2304.rank)
  bitsLt_bf16_f32 : FTy.bits .bf16 < FTy.bits .f32
  shapeCasts_S512_S1x512 : S512.ShapeCasts S1x512
  inb_S832x2304_S832x2304_0_0 : ∀ a, (![0, 0] : Fin 2 → Nat) a + S832x2304.size a ≤ S832x2304.size a
  h_S832x2304 : 0 < S832x2304.numel
  shapeCasts_S832x2304_S832x2304 : S832x2304.ShapeCasts S832x2304
  inb_S2304x512_S2304x512_0_0 : ∀ a, (![0, 0] : Fin 2 → Nat) a + S2304x512.size a ≤ S2304x512.size a
  h_S2304x512 : 0 < S2304x512.numel
  shapeCasts_S2304x512_S2304x512 : S2304x512.ShapeCasts S2304x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S832x512 : S1x512.Broadcasts S832x512
  inb_S832x512_S832x512_0_0 : ∀ a, (![0, 0] : Fin 2 → Nat) a + S832x512.size a ≤ S832x512.size a
  h_S832x512 : 0 < S832x512.numel
  shapeCasts_S21632x512_S8x52x52x512 : S21632x512.ShapeCasts S8x52x52x512
  transposes_S8x52x52x512_S8x512x52x52_0_3_1_2 : S8x52x52x512.Transposes [0, 3, 1, 2] S8x512x52x52
  dot_S832x2304_S2304x512_S832x512_1_0_0_1_n_n_wf : DotDims.WF S832x2304 S2304x512 S832x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S832x2304.size a ≤ S21632x2304.size a
  hwx0_0 : ∀ i : grid0.Coords, EltTy.bits .bf16 = 32 ∨ (Rect.block (s := S21632x2304) S832x2304.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x512.size a ≤ S2304x512.size a
  hwx0_1 : ∀ i : grid0.Coords, EltTy.bits .bf16 = 32 ∨ (Rect.block (s := S2304x512) S2304x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S832x512.size a ≤ S21632x512.size a
  hwx0_3 : ∀ i : grid0.Coords, EltTy.bits .f32 = 32 ∨ (Rect.block (s := S21632x512) S832x512.size (cc0_transform_3 i) (hinb0_3 i)).WholeWords (EltTy.packing .f32)

variable [Facts₀]

def dot_S832x2304_S2304x512_S832x512_1_0_0_1_n_n : DotDims S832x2304 S2304x512 S832x512 where
  lhsContracting := [1]
  rhsContracting := [0]
  lhsNonContracting := [0]
  rhsNonContracting := [1]
  lhsBatch := []
  rhsBatch := []
  wf := dot_S832x2304_S2304x512_S832x512_1_0_0_1_n_n_wf

abbrev win0_0 : Pipeline.Window sig grid0 :=
  Pipeline.Window.ofSpec (Memref.whole main_v29) S832x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2304x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S832x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩
abbrev S8x256x54x54 : Shape := ⟨4, ![8, 256, 54, 54]⟩
abbrev S1x8x256x52x52 : Shape := ⟨5, ![1, 8, 256, 52, 52]⟩
abbrev S9x8x256x52x52 : Shape := ⟨5, ![9, 8, 256, 52, 52]⟩
abbrev S3x3x8x256x52x52 : Shape := ⟨6, ![3, 3, 8, 256, 52, 52]⟩
abbrev S8x52x52x256x3x3 : Shape := ⟨6, ![8, 52, 52, 256, 3, 3]⟩
abbrev S21632x2304 : Shape := ⟨2, ![21632, 2304]⟩
abbrev S21632x512 : Shape := ⟨2, ![21632, 512]⟩
abbrev S1x512 : Shape := ⟨2, ![1, 512]⟩
abbrev S8x52x52x512 : Shape := ⟨4, ![8, 52, 52, 512]⟩
abbrev S8x512x52x52 : Shape := ⟨4, ![8, 512, 52, 52]⟩

abbrev nBuf : Space → Nat
  | .hbm => 64
  | .vmem => 0
  | .smem => 0
  | _ => 0

abbrev bufTy : (tb : Table) → Fin (tcTables nBuf tb) → BufTy
  | .hbm, ⟨0, _⟩ => ⟨S8x256x52x52, .f32⟩
  | .hbm, ⟨1, _⟩ => ⟨S2304x512, .f32⟩
  | .hbm, ⟨2, _⟩ => ⟨S512, .f32⟩
  | .hbm, ⟨3, _⟩ => ⟨S_, .f32⟩
  | .hbm, ⟨4, _⟩ => ⟨S8x256x52x52, .f32⟩
  | .hbm, ⟨5, _⟩ => ⟨S8x256x52x52, .f32⟩
  | .hbm, ⟨6, _⟩ => ⟨S8x256x52x52, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x256x52x52, .f32⟩
  | .hbm, ⟨11, _⟩ => ⟨S8x256x52x52, .f32⟩
  | .hbm, ⟨12, _⟩ => ⟨S_, .f32⟩
  | .hbm, ⟨13, _⟩ => ⟨S8x256x52x52, .f32⟩
  | .hbm, ⟨14, _⟩ => ⟨S8x256x52x52, .f32⟩
  | .hbm, ⟨15, _⟩ => ⟨S_, .i32⟩
  | .hbm, ⟨16, _⟩ => ⟨S_, .f32⟩
  | .hbm, ⟨17, _⟩ => ⟨S8x256x54x54, .f32⟩
  | .hbm, ⟨18, _⟩ => ⟨S8x256x52x52, .f32⟩
  | .hbm, ⟨19, _⟩ => ⟨S8x256x52x52, .f32⟩
  | .hbm, ⟨20, _⟩ => ⟨S8x256x52x52, .f32⟩
  | .hbm, ⟨21, _⟩ => ⟨S8x256x52x52, .f32⟩
  | .hbm, ⟨22, _⟩ => ⟨S8x256x52x52, .f32⟩
  | .hbm, ⟨23, _⟩ => ⟨S8x256x52x52, .f32⟩
  | .hbm, ⟨24, _⟩ => ⟨S8x256x52x52, .f32⟩
  | .hbm, ⟨25, _⟩ => ⟨S8x256x52x52, .f32⟩
  | .hbm, ⟨26, _⟩ => ⟨S8x256x52x52, .f32⟩
  | .hbm, ⟨27, _⟩ => ⟨S1x8x256x52x52, .f32⟩
  | .hbm, ⟨28, _⟩ => ⟨S1x8x256x52x52, .f32⟩
  | .hbm, ⟨29, _⟩ => ⟨S1x8x256x52x52, .f32⟩
  | .hbm, ⟨30, _⟩ => ⟨S1x8x256x52x52, .f32⟩
  | .hbm, ⟨31, _⟩ => ⟨S1x8x256x52x52, .f32⟩
  | .hbm, ⟨32, _⟩ => ⟨S1x8x256x52x52, .f32⟩
  | .hbm, ⟨33, _⟩ => ⟨S1x8x256x52x52, .f32⟩
  | .hbm, ⟨34, _⟩ => ⟨S1x8x256x52x52, .f32⟩
  | .hbm, ⟨35, _⟩ => ⟨S1x8x256x52x52, .f32⟩
  | .hbm, ⟨36, _⟩ => ⟨S9x8x256x52x52, .f32⟩
  | .hbm, ⟨37, _⟩ => ⟨S3x3x8x256x52x52, .f32⟩
  | .hbm, ⟨38, _⟩ => ⟨S8x52x52x256x3x3, .f32⟩
  | .hbm, ⟨39, _⟩ => ⟨S21632x2304, .f32⟩
  | .hbm, ⟨40, _⟩ => ⟨S_, .f32⟩
  | .hbm, ⟨41, _⟩ => ⟨S21632x2304, .f32⟩
  | .hbm, ⟨42, _⟩ => ⟨S21632x2304, .f32⟩
  | .hbm, ⟨43, _⟩ => ⟨S21632x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S21632x512, .f32⟩
  | .hbm, ⟨49, _⟩ => ⟨S21632x512, .f32⟩
  | .hbm, ⟨50, _⟩ => ⟨S_, .f32⟩
  | .hbm, ⟨51, _⟩ => ⟨S21632x512, .f32⟩
  | .hbm, ⟨52, _⟩ => ⟨S21632x512, .f32⟩
  | .hbm, ⟨53, _⟩ => ⟨S21632x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S21632x512, .f32⟩
  | .hbm, ⟨58, _⟩ => ⟨S21632x512, .f32⟩
  | .hbm, ⟨59, _⟩ => ⟨S_, .f32⟩
  | .hbm, ⟨60, _⟩ => ⟨S21632x512, .f32⟩
  | .hbm, ⟨61, _⟩ => ⟨S21632x512, .f32⟩
  | .hbm, ⟨62, _⟩ => ⟨S8x52x52x512, .f32⟩
  | .hbm, ⟨63, _⟩ => ⟨S8x512x52x52, .f32⟩
  | _, _ => ⟨S8x256x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_c : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S8x256x52x52 : S_.BroadcastsInDim S8x256x52x52 (![] : Fin 0 → Fin S8x256x52x52.rank)
  pads_S8x256x52x52_S8x256x54x54_000_000_110_110 : S8x256x52x52.Pads (![0, 0, 1, 1] : Fin 4 → Nat) ![0, 0, 1, 1] ![0, 0, 0, 0] S8x256x54x54
  h_S_ : 0 < S_.numel
  slices_S8x256x54x54_S8x256x52x52_0_0_0_0 : S8x256x54x54.Slices ![0, 0, 0, 0] S8x256x52x52
  slices_S8x256x54x54_S8x256x52x52_0_0_0_1 : S8x256x54x54.Slices ![0, 0, 0, 1] S8x256x52x52
  slices_S8x256x54x54_S8x256x52x52_0_0_0_2 : S8x256x54x54.Slices ![0, 0, 0, 2] S8x256x52x52
  slices_S8x256x54x54_S8x256x52x52_0_0_1_0 : S8x256x54x54.Slices ![0, 0, 1, 0] S8x256x52x52
  slices_S8x256x54x54_S8x256x52x52_0_0_1_1 : S8x256x54x54.Slices ![0, 0, 1, 1] S8x256x52x52
  slices_S8x256x54x54_S8x256x52x52_0_0_1_2 : S8x256x54x54.Slices ![0, 0, 1, 2] S8x256x52x52
  slices_S8x256x54x54_S8x256x52x52_0_0_2_0 : S8x256x54x54.Slices ![0, 0, 2, 0] S8x256x52x52
  slices_S8x256x54x54_S8x256x52x52_0_0_2_1 : S8x256x54x54.Slices ![0, 0, 2, 1] S8x256x52x52
  slices_S8x256x54x54_S8x256x52x52_0_0_2_2 : S8x256x54x54.Slices ![0, 0, 2, 2] S8x256x52x52
  bcast_S8x256x52x52_S1x8x256x52x52_1_2_3_4 : S8x256x52x52.BroadcastsInDim S1x8x256x52x52 (![1, 2, 3, 4] : Fin 4 → Fin S1x8x256x52x52.rank)
  concatenates_S1x8x256x52x52_S1x8x256x52x52_S1x8x256x52x52_S1x8x256x52x52_S1x8x256x52x52_S1x8x256x52x52_S1x8x256x52x52_S1x8x256x52x52_S1x8x256x52x52_S9x8x256x52x52_d0 : Shape.Concatenates [S1x8x256x52x52, S1x8x256x52x52, S1x8x256x52x52, S1x8x256x52x52, S1x8x256x52x52, S1x8x256x52x52, S1x8x256x52x52, S1x8x256x52x52, S1x8x256x52x52] S9x8x256x52x52 0
  shapeCasts_S9x8x256x52x52_S3x3x8x256x52x52 : S9x8x256x52x52.ShapeCasts S3x3x8x256x52x52
  transposes_S3x3x8x256x52x52_S8x52x52x256x3x3_2_4_5_3_0_1 : S3x3x8x256x52x52.Transposes [2, 4, 5, 3, 0, 1] S8x52x52x256x3x3
  shapeCasts_S8x52x52x256x3x3_S21632x2304 : S8x52x52x256x3x3.ShapeCasts S21632x2304
  bcast_S_S21632x2304 : S_.BroadcastsInDim S21632x2304 (![] : Fin 0 → Fin S21632x2304.rank)
  bcast_S_S512 : S_.BroadcastsInDim S512 (![] : Fin 0 → Fin S512.rank)
  bcast_S512_S1x512_1 : S512.BroadcastsInDim S1x512 (![1] : Fin 1 → Fin S1x512.rank)
  bcast_S1x512_S21632x512_0_1 : S1x512.BroadcastsInDim S21632x512 (![0, 1] : Fin 2 → Fin S21632x512.rank)
  bcast_S_S21632x512 : S_.BroadcastsInDim S21632x512 (![] : Fin 0 → Fin S21632x512.rank)
  shapeCasts_S21632x512_S8x52x52x512 : S21632x512.ShapeCasts S8x52x52x512
  transposes_S8x52x52x512_S8x512x52x52_0_3_1_2 : S8x52x52x512.Transposes [0, 3, 1, 2] S8x512x52x52
  dot_S21632x2304_S2304x512_S21632x512_1_0_0_1_n_n_wf : DotDims.WF S21632x2304 S2304x512 S21632x512 [1] [0] [0] [1] [] []

variable [Facts₀]

def dot_S21632x2304_S2304x512_S21632x512_1_0_0_1_n_n : DotDims S21632x2304 S2304x512 S21632x512 where
  lhsContracting := [1]
  rhsContracting := [0]
  lhsNonContracting := [0]
  rhsNonContracting := [1]
  lhsBatch := []
  rhsBatch := []
  wf := dot_S21632x2304_S2304x512_S21632x512_1_0_0_1_n_n_wf

class Facts : Prop extends Facts₀ where

variable [Facts]
-- ==== Proof.KernelFrame.lean ====
/-
  The frame of the im2col-matmul program: every weakly fair execution of @main terminates, faults nowhere and leaves
  the three argument arrays as launched; and, beyond the frame, what the result array of the region holds afterwards.

  @main is seven stretches of host operations (the quantisation of the input, its zero padding, the nine shifted
  slices stacked and re-laid into the patch matrix, its halving, the two roundings to bf16 and the bias as a row),
  the one region over a grid of 26 points, and two host operations after it (the re-laying of the product into
  image layout). At grid point t the body loads the t-th block of 832 patch rows, the whole weight matrix and the
  bias row, and stores ONE whole block of the result: the product of the two with a zero accumulator, plus eight
  times the bias row, halved, rounded to even and clamped to [-128, 127]. Nothing is carried from point to point,
  so the proof data name what each staging buffer holds after the body by one formula at every point, and the
  invariant is the untouched remainder of the core's state.

  No host operation, before or after the region, writes an argument array (each writes its own result buffer
  only), which is the frame; the result array after the region is the blocks the 26 points wrote back.
-/
import proofs.«160808_j57483842290268_1_alg».proof.Proof.Gen.Kernel.Launch
import proofs.«160808_j57483842290268_1_alg».proof.Proof.Gen.Kernel.Skeleton
import proofs.«160808_j57483842290268_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) := [hostOps0, hostOps0_1, hostOps0_2, hostOps0_3, hostOps0_4, hostOps0_5, hostOps0_6]

/-- Core `c`'s buffer contents when the region is entered: the launch memory after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (preOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    point has the block index of the point before it, whose block the body left in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point has the block index of the point before it, whose block the body left in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point has the block index of the point before it, whose block the body left in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays are no array of the pipeline, so the run's post gives each at what the operations
    after the region leave of the region-entry contents, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

/-- The whole block of patch rows, of the weights, of the bias row and of the result: each access of the body is one. -/
abbrev rA : Rect S832x2304 := Rect.unit (s := S832x2304) ![0, 0] S832x2304.size inb_S832x2304_S832x2304_0_0
abbrev rB : Rect S2304x512 := Rect.unit (s := S2304x512) ![0, 0] S2304x512.size inb_S2304x512_S2304x512_0_0
abbrev rC : Rect S1x512 := Rect.unit (s := S1x512) ![0, 0] S1x512.size inb_S1x512_S1x512_0_0
abbrev rO : Rect S832x512 := Rect.unit (s := S832x512) ![0, 0] S832x512.size inb_S832x512_S832x512_0_0

/-! ## What the body leaves in the result's staging buffer -/

/-- The result block after the body, from the three input blocks: its one store, of the body's arithmetic on them. -/
def out0_3 (x0 : Vec F S832x2304 .bf16) (x1 : Vec F S2304x512 .bf16) (x2 : Vec F S1x512 .f32) : Vec F S832x512 .f32 :=
  View.canon [⟨rO, k0_pay1 (View.ld x0 rA) (View.ld x1 rB) (View.ld x2 rC)⟩]

/-- The one store covers the block. -/
theorem cover0_3 (p0 : Vec F S832x512 .f32) (y : S832x512.Idx) :
    ∃ pc ∈ ([⟨rO, p0⟩] : List (View.Piece (Elt F) S832x512 .f32)), y ∈ pc.1.set :=
  View.cover_of_tiled [⟨rO, p0⟩] S832x512.size (by rfl) y

/-! ## The body's triple -/

set_option maxHeartbeats 1000000 in
/-- The body on whole staging memrefs, the inputs' at contents `x0 x1 x2` and the result's at anything (the body
    also loads it and does not use the value), runs to the continuation with the inputs' as they were and the
    result's at `out0_3` of them. -/
theorem sound_kernel (c : Dev nD) (E : Set ℕ) (i : grid0.Coords)
    (arg1 : Memref sig .tc .vmem S832x2304 .bf16) (harg1 : arg1.IsWhole) (arg2 : Memref sig .tc .vmem S2304x512 .bf16) (harg2 : arg2.IsWhole)
    (arg3 : Memref sig .tc .vmem S1x512 .f32) (harg3 : arg3.IsWhole) (arg4 : Memref sig .tc .vmem S832x512 .f32) (harg4 : arg4.IsWhole)
    (x0 : Vec F S832x2304 .bf16) (x1 : Vec F S2304x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the result's at `out0_3` of the three input blocks; the invariant the
    untouched rest of the core; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (projected, never unfolded through the host stretches). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs made of it and every other unscoped buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.KernelIdealFrame.lean ====
/-
  The frame of the im2col-matmul program: every weakly fair execution of @main terminates, faults nowhere and leaves
  the three argument arrays as launched; and, beyond the frame, what the result array of the region holds afterwards.

  @main is seven stretches of host operations (the quantisation of the input, its zero padding, the nine shifted
  slices stacked and re-laid into the patch matrix, its halving, the two roundings to bf16 and the bias as a row),
  the one region over a grid of 26 points, and two host operations after it (the re-laying of the product into
  image layout). At grid point t the body loads the t-th block of 832 patch rows, the whole weight matrix and the
  bias row, and stores ONE whole block of the result: the product of the two with a zero accumulator, plus eight
  times the bias row, halved, rounded to even and clamped to [-128, 127]. Nothing is carried from point to point,
  so the proof data name what each staging buffer holds after the body by one formula at every point, and the
  invariant is the untouched remainder of the core's state.

  No host operation, before or after the region, writes an argument array (each writes its own result buffer
  only), which is the frame; the result array after the region is the blocks the 26 points wrote back.
-/
import proofs.«160808_j57483842290268_1_alg».proof.Proof.Gen.KernelIdeal.Launch
import proofs.«160808_j57483842290268_1_alg».proof.Proof.Gen.KernelIdeal.Skeleton
import proofs.«160808_j57483842290268_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) := [hostOps0, hostOps0_1, hostOps0_2, hostOps0_3, hostOps0_4, hostOps0_5, hostOps0_6]

/-- Core `c`'s buffer contents when the region is entered: the launch memory after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (preOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    point has the block index of the point before it, whose block the body left in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point has the block index of the point before it, whose block the body left in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point has the block index of the point before it, whose block the body left in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays are no array of the pipeline, so the run's post gives each at what the operations
    after the region leave of the region-entry contents, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

/-- The whole block of patch rows, of the weights, of the bias row and of the result: each access of the body is one. -/
abbrev rA : Rect S832x2304 := Rect.unit (s := S832x2304) ![0, 0] S832x2304.size inb_S832x2304_S832x2304_0_0
abbrev rB : Rect S2304x512 := Rect.unit (s := S2304x512) ![0, 0] S2304x512.size inb_S2304x512_S2304x512_0_0
abbrev rC : Rect S1x512 := Rect.unit (s := S1x512) ![0, 0] S1x512.size inb_S1x512_S1x512_0_0
abbrev rO : Rect S832x512 := Rect.unit (s := S832x512) ![0, 0] S832x512.size inb_S832x512_S832x512_0_0

/-! ## What the body leaves in the result's staging buffer -/

/-- The result block after the body, from the three input blocks: its one store, of the body's arithmetic on them. -/
def out0_3 (x0 : Vec F S832x2304 .bf16) (x1 : Vec F S2304x512 .bf16) (x2 : Vec F S1x512 .f32) : Vec F S832x512 .f32 :=
  View.canon [⟨rO, k0_pay1 (View.ld x0 rA) (View.ld x1 rB) (View.ld x2 rC)⟩]

/-- The one store covers the block. -/
theorem cover0_3 (p0 : Vec F S832x512 .f32) (y : S832x512.Idx) :
    ∃ pc ∈ ([⟨rO, p0⟩] : List (View.Piece (Elt F) S832x512 .f32)), y ∈ pc.1.set :=
  View.cover_of_tiled [⟨rO, p0⟩] S832x512.size (by rfl) y

/-! ## The body's triple -/

set_option maxHeartbeats 1000000 in
/-- The body on whole staging memrefs, the inputs' at contents `x0 x1 x2` and the result's at anything (the body
    also loads it and does not use the value), runs to the continuation with the inputs' as they were and the
    result's at `out0_3` of them. -/
theorem sound_kernel (c : Dev nD) (E : Set ℕ) (i : grid0.Coords)
    (arg1 : Memref sig .tc .vmem S832x2304 .bf16) (harg1 : arg1.IsWhole) (arg2 : Memref sig .tc .vmem S2304x512 .bf16) (harg2 : arg2.IsWhole)
    (arg3 : Memref sig .tc .vmem S1x512 .f32) (harg3 : arg3.IsWhole) (arg4 : Memref sig .tc .vmem S832x512 .f32) (harg4 : arg4.IsWhole)
    (x0 : Vec F S832x2304 .bf16) (x1 : Vec F S2304x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the result's at `out0_3` of the three input blocks; the invariant the
    untouched rest of the core; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (projected, never unfolded through the host stretches). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs made of it and every other unscoped buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.EntryValues.lean ====
/-
  What the region finds in the arrays of its three input windows. The patch-row window's array is the halved patch
  matrix rounded to bf16; the weight window's is the weights rounded to bf16; the bias window's is the bias as one
  row. The halved patch matrix is the SAME composition of operations of the input array that the reference program
  computes before its matrix product (quantise, pad, nine shifted slices stacked, re-laid, halved), so it is named
  here by the reference's stage and never opened.
-/
import proofs.«160808_j57483842290268_1_alg».proof.Proof.KernelIdealFrame
import proofs.«160808_j57483842290268_1_alg».proof.Proof.Gen.ReferenceIdeal.Read
import Idealize.ShloMosaic.Lib.StableHlo.Run

set_option maxRecDepth 16384

noncomputable section

namespace Cert.KernelIdeal.Frm

open Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The weight window's array: the weights, each rounded to bf16. -/
theorem V_main_v30 (c : Dev nD) :
    V m c main_v30 = truncf .bf16 (m ((c : Thread nD τ).loc main_arg1)) bitsLt_bf16_f32 := by
  dsimp only [V, V0, preOps]
  simp only [hostOps0, hostOps0_1, hostOps0_2, hostOps0_3, hostOps0_4, hostOps0_5, hostOps0_6,
    List.flatten_cons, List.flatten_nil, List.append_nil, List.cons_append, List.nil_append]
  after_results

/-- The bias window's array: the bias as a one-row matrix. -/
theorem V_main_v31 (c : Dev nD) :
    V m c main_v31 = shapeCast S1x512 (m ((c : Thread nD τ).loc main_arg2)) shapeCasts_S512_S1x512 := by
  dsimp only [V, V0, preOps]
  simp only [hostOps0, hostOps0_1, hostOps0_2, hostOps0_3, hostOps0_4, hostOps0_5, hostOps0_6,
    List.flatten_cons, List.flatten_nil, List.append_nil, List.cons_append, List.nil_append]
  after_results
  rfl

set_option maxHeartbeats 4000000 in
/-- The patch-row window's array: the halved patch matrix of the input, each entry rounded to bf16. -/
theorem V_main_v29 (c : Dev nD) :
    V m c main_v29 = truncf .bf16 (Cert.ReferenceIdeal.Read.val_main_v28 (F := F) (m ((c : Thread nD τ).loc main_arg0))) bitsLt_bf16_f32 := by
  dsimp only [V, V0, preOps]
  simp only [hostOps0, hostOps0_1, hostOps0_2, hostOps0_3, hostOps0_4, hostOps0_5, hostOps0_6,
    List.flatten_cons, List.flatten_nil, List.append_nil, List.cons_append, List.nil_append]
  after_results
  rfl

end Cert.KernelIdeal.Frm

end
-- ==== Proof.Quant.lean ====
/-
  The quantising epilogue, as one function on the extended reals: the accumulated product `s` and the bias entry `b`
  go to  clamp(round_half_even((s + 8·b) · ½))  with the clamp to [-128, 127]. The four constants are kept as the
  words the two programs print (8.0, 0.5, -128.0, 127.0 in binary32): the same words stand on both sides, so none
  is ever evaluated.
-/
import Idealize.ShloMosaic.PureOps.Ideal

noncomputable section

namespace Cert.Quant

open Idealize.ShloMosaic

/-- `min 127 (max (-128) (round ((s + b · 8) · ½)))`, rounding to nearest with ties to even (infinities fixed). -/
def qz (s b : EReal) : EReal :=
  min (Ideal.ofBits .f32 0x42FE0000#32) (max (Ideal.ofBits .f32 0xC3000000#32)
    (Ideal.liftRound Ideal.roundHalfEven ((s + b * Ideal.ofBits .f32 0x41000000#32) * Ideal.ofBits .f32 0x3F000000#32)))

end Cert.Quant

end
-- ==== Proof.BlockValue.lean ====
/-
  What the kernel body stores, read at an index. On one block of 832 patch rows `x0`, the whole weight matrix `x1`
  and the bias row `x2`, entry (p, q) of the stored block is the quantising epilogue of  Σ_k x0(p, k) · x1(k, q)
  (the matrix unit's product into a zero accumulator is, on the extended reals, just this sum) and of x2(0, q)
  (the bias row broadcast down the 832 rows).
-/
import proofs.«160808_j57483842290268_1_alg».proof.Proof.Gen.KernelIdeal.Skeleton
import proofs.«160808_j57483842290268_1_alg».proof.Proof.Quant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Gen
open Idealize.ShloMosaic Idealize.ShloMosaic.TcCoe Idealize.SL.Sem Idealize.ShloMosaic.ValueIdx

/-! ## The product's index maps: the left operand is read at (row of the result, k), the right at (k, column) -/

theorem lhs_0 (i : S832x512.Idx) (q : dot_S832x2304_S2304x512_S832x512_1_0_0_1_n_n.contr.Idx) :
    (dot_S832x2304_S2304x512_S832x512_1_0_0_1_n_n.lhsIdx i q 0).val = (i 0).val := by
  unfold DotDims.lhsIdx
  rw [dif_neg (show ¬(0 : Fin S832x2304.rank) ∈ dot_S832x2304_S2304x512_S832x512_1_0_0_1_n_n.lhsBatch by decide), dif_pos (show (0 : Fin S832x2304.rank) ∈ dot_S832x2304_S2304x512_S832x512_1_0_0_1_n_n.lhsNonContracting by decide)]
  rfl
theorem lhs_1 (i : S832x512.Idx) (q : dot_S832x2304_S2304x512_S832x512_1_0_0_1_n_n.contr.Idx) :
    (dot_S832x2304_S2304x512_S832x512_1_0_0_1_n_n.lhsIdx i q 1).val = (q ⟨0, by decide⟩).val :=
  dot_S832x2304_S2304x512_S832x512_1_0_0_1_n_n.lhsIdx_val_of_single rfl i q
theorem rhs_0 (i : S832x512.Idx) (q : dot_S832x2304_S2304x512_S832x512_1_0_0_1_n_n.contr.Idx) :
    (dot_S832x2304_S2304x512_S832x512_1_0_0_1_n_n.rhsIdx i q 0).val = (q ⟨0, by decide⟩).val :=
  dot_S832x2304_S2304x512_S832x512_1_0_0_1_n_n.rhsIdx_val_of_single rfl i q
theorem rhs_1 (i : S832x512.Idx) (q : dot_S832x2304_S2304x512_S832x512_1_0_0_1_n_n.contr.Idx) :
    (dot_S832x2304_S2304x512_S832x512_1_0_0_1_n_n.rhsIdx i q 1).val = (i 1).val := by
  unfold DotDims.rhsIdx
  rw [dif_neg (show ¬(1 : Fin S2304x512.rank) ∈ dot_S832x2304_S2304x512_S832x512_1_0_0_1_n_n.rhsBatch by decide), dif_pos (show (1 : Fin S2304x512.rank) ∈ dot_S832x2304_S2304x512_S832x512_1_0_0_1_n_n.rhsNonContracting by decide)]
  rfl

/-- The matrix unit's product of a block of rows with the weights, into a zero accumulator, at entry (p, q):
    the sum over the 2304 contracted positions of the products. -/
theorem product_apply (a : FVec Ideal S832x2304 .bf16) (b : FVec Ideal S2304x512 .bf16) (p : Fin 832) (q : Fin 512) :
    matmul dot_S832x2304_S2304x512_S832x512_1_0_0_1_n_n none a b (constant (F := Ideal) S832x512 .f32 0x00000000#32) (ix2 p q)
      = ∑ k : Fin 2304, a (ix2 p k) * b (ix2 k q) := by
  refine (Ideal.matmul_constant_zero_apply dot_S832x2304_S2304x512_S832x512_1_0_0_1_n_n none a b (ix2 p q)).trans ?_
  rw [← Equiv.sum_comp (ValueIdx.contrEquiv1 dot_S832x2304_S2304x512_S832x512_1_0_0_1_n_n 2304 rfl rfl).symm]
  refine Finset.sum_congr rfl fun k _ => ?_
  have hk := ValueIdx.contrEquiv1_symm_val dot_S832x2304_S2304x512_S832x512_1_0_0_1_n_n 2304 rfl rfl k
  have el : dot_S832x2304_S2304x512_S832x512_1_0_0_1_n_n.lhsIdx (ix2 p q) ((ValueIdx.contrEquiv1 dot_S832x2304_S2304x512_S832x512_1_0_0_1_n_n 2304 rfl rfl).symm k) = ix2 p k := funext fun a => Fin.ext (by
    match a with
    | ⟨0, _⟩ => exact lhs_0 _ _
    | ⟨1, _⟩ => exact (lhs_1 _ _).trans hk)
  have er : dot_S832x2304_S2304x512_S832x512_1_0_0_1_n_n.rhsIdx (ix2 p q) ((ValueIdx.contrEquiv1 dot_S832x2304_S2304x512_S832x512_1_0_0_1_n_n 2304 rfl rfl).symm k) = ix2 k q := funext fun a => Fin.ext (by
    match a with
    | ⟨0, _⟩ => exact (rhs_0 _ _).trans hk
    | ⟨1, _⟩ => exact rhs_1 _ _)
  rw [el, er]

/-- The stored block at entry (p, q). -/
theorem stored_apply (x0 : Vec Ideal S832x2304 .bf16) (x1 : Vec Ideal S2304x512 .bf16) (x2 : Vec Ideal S1x512 .f32)
    (p : Fin 832) (q : Fin 512) :
    k0_pay1 (F := Ideal) x0 x1 x2 (ix2 p q)
      = Cert.Quant.qz (∑ k : Fin 2304, x0 (ix2 p k) * x1 (ix2 k q)) (x2 (ix2 (0 : Fin 1) q)) := by
  unfold k0_pay1
  simp only [shapeCast_self]
  refine (show _ = Cert.Quant.qz
      (matmul dot_S832x2304_S2304x512_S832x512_1_0_0_1_n_n none x0 x1 (constant (F := Ideal) S832x512 .f32 0x00000000#32) (ix2 p q))
      (broadcastTo S832x512 x2 broadcasts_S1x512_S832x512 (ix2 p q)) from rfl).trans ?_
  rw [product_apply, broadcastTo_1b_ab_apply]

end Cert.KernelIdeal.Blk

end
-- ==== Proof.RefSide.lean ====
/-
  The reference's matrix-level result read at an index. Before its final re-laying into image layout the
  reference holds a 21632 × 512 matrix: entry (r, j) is the quantising epilogue of the sum over k of
  (halved patch matrix)(r, k) · weight(k, j), and of bias(j). The halved patch matrix is kept as the one function
  of the input the program's first stages compute; nothing here opens it.
-/
import proofs.«160808_j57483842290268_1_alg».proof.Defs
import proofs.«160808_j57483842290268_1_alg».proof.Proof.Gen.ReferenceIdeal.Run
import proofs.«160808_j57483842290268_1_alg».proof.Proof.Gen.ReferenceIdeal.Read
import proofs.«160808_j57483842290268_1_alg».proof.Proof.Quant

noncomputable section

namespace Cert.ReferenceIdeal.RefValue

open Cert.ReferenceIdeal Cert.ReferenceIdeal.Gen Cert.ReferenceIdeal.Read
open Idealize.ShloMosaic Idealize.ShloMosaic.TcCoe Idealize.SL.Sem

/-- Entry `i = (r, j)` of the clamped matrix: the epilogue of row `r` of the halved patch matrix against column `j`
    of the weights, and of the bias at `j` (read through the two broadcasts that make it a row and then a matrix). -/
theorem clamped_apply (x0 : (⟨S8x256x52x52, .f32⟩ : BufTy).Contents (Elt Ideal)) (x1 : (⟨S2304x512, .f32⟩ : BufTy).Contents (Elt Ideal))
    (x2 : (⟨S512, .f32⟩ : BufTy).Contents (Elt Ideal)) (i : S21632x512.Idx) :
    val_main_v38 (F := Ideal) x0 x1 x2 i
      = Cert.Quant.qz (∑ k : Fin 2304, (val_main_v28 (F := Ideal) x0) (lidx_main_v29 i k) * x1 (ridx_main_v29 i k))
          (x2 (idx_main_v32 (idx_main_v33 i))) := by
  rw [val_main_v38_apply, val_main_call4_v4_apply, val_main_call4_v3_apply, val_main_cst_6_apply,
    val_main_call4_v2_apply, val_main_call4_v1_apply, val_main_call4_v0_apply, val_main_cst_5_apply,
    val_main_v37_apply, val_main_v36_apply, val_main_v35_apply, val_main_cst_4_apply,
    val_main_v34_apply, val_main_v33_apply, val_main_v32_apply, val_main_v31_apply, val_main_v30_apply, val_main_cst_3_apply,
    val_main_v29_apply]
  rfl

end Cert.ReferenceIdeal.RefValue

end
-- ==== Proof.KernelValue.lean ====
/-
  The idealized kernel's result as one function of its arguments. Grid point t writes back rows 832·t … 832·t + 831 of
  the 21632 × 512 result; entry (p, q) of that block is the quantising epilogue of the sum over k of
  (patch rows of block t)(p, k) · weights(k, q) and of bias(q). The block of patch rows is rows 832·t … of the halved
  patch matrix, the weight and bias windows are whole arrays, and rounding to bf16 is the identity on the extended
  reals; so the block is the restriction of ONE matrix, the reference's clamped matrix of the same arguments, and the
  26 blocks tile its 21632 = 26 · 832 rows. The two host operations after the region re-lay that matrix into image
  layout exactly as the reference's last two do, so the result is the reference's result term of the same arguments.
-/
import proofs.«160808_j57483842290268_1_alg».proof.Proof.KernelIdealFrame
import proofs.«160808_j57483842290268_1_alg».proof.Proof.EntryValues
import proofs.«160808_j57483842290268_1_alg».proof.Proof.BlockValue
import proofs.«160808_j57483842290268_1_alg».proof.Proof.RefSide
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Cert.KernelIdeal.Gen Cert.KernelIdeal.Frm
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' block indices over the grid: the patch-row window and the result window are at block row t, the
    weight and bias windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read -/

/-- An entry of the patch-row block at point t is the halved patch matrix at the block's place in the array. -/
theorem patch_block (c : Dev nD) (t : Fin cfg0.N) (y : S832x2304.Idx) :
    iblk m c 0 t y = Cert.ReferenceIdeal.Read.val_main_v28 (F := Ideal) (m ((c : Thread nD τ).loc main_arg0)) (((cfg0.win 0).blk t).view.emb y) := by
  show V m c main_v29 (((cfg0.win 0).blk t).view.emb y) = _
  rw [V_main_v29]
  rfl

/-- An entry of the weight block is the weight at the block's place in the array. -/
theorem weight_block (c : Dev nD) (t : Fin cfg0.N) (y : S2304x512.Idx) :
    iblk m c 1 t y = m ((c : Thread nD τ).loc main_arg1) (((cfg0.win 1).blk t).view.emb y) := by
  show V m c main_v30 (((cfg0.win 1).blk t).view.emb y) = _
  rw [V_main_v30]
  rfl

/-- An entry of the bias block is the bias row at the block's place in the array. -/
theorem bias_block (c : Dev nD) (t : Fin cfg0.N) (y : S1x512.Idx) :
    iblk m c 2 t y = shapeCast S1x512 (m ((c : Thread nD τ).loc main_arg2)) shapeCasts_S512_S1x512 (((cfg0.win 2).blk t).view.emb y) := by
  show V m c main_v31 (((cfg0.win 2).blk t).view.emb y) = _
  rw [V_main_v31]

/-! ## What each point writes back -/

/-- The matrix the result array ends holding: the reference's clamped matrix of the kernel's own arguments. -/
def clamped (c : Dev nD) : Buf (Elt Ideal) ((c : Thread nD τ).loc main_v32) :=
  Cert.ReferenceIdeal.Read.val_main_v38 (F := Ideal) (m ((c : Thread nD τ).loc main_arg0)) (m ((c : Thread nD τ).loc main_arg1)) (m ((c : Thread nD τ).loc main_arg2))

/-- What point t writes back is block t of that matrix. -/
theorem flushed_eq (c : Dev nD) (t : Fin cfg0.N) :
    (dats m 0 c).flushed 3 t = ((cfg0.win 3).blk t).view.read (Elt Ideal) (clamped m c) := by
  show (cfg0.win 3).cut (grid0.coords t) ((dats m 0 c).after 3 t) = _
  rw [after0_3]
  unfold out0_3
  rw [View.canon_unit_zero hz]
  simp only [View.ld_unit_zero (S := S832x2304) hz, View.ld_unit_zero (S := S2304x512) hz, View.ld_unit_zero (S := S1x512) hz]
  obtain ⟨e00, e01, e10, e11, e20, e21, e30, e31⟩ := idx_facts t
  funext j
  obtain ⟨p, q, rfl⟩ : ∃ (p : Fin 832) (q : Fin 512), j = ix2 p q := ⟨j 0, j 1, eq_ix2 j⟩
  refine (Cert.KernelIdeal.Blk.stored_apply (iblk m c 0 t) (iblk m c 1 t) (iblk m c 2 t) p q).trans ?_
  refine Eq.trans ?_ (Cert.ReferenceIdeal.RefValue.clamped_apply _ _ _ (((cfg0.win 3).blk t).view.emb (ix2 p q))).symm
  refine congrArg₂ Cert.Quant.qz (Finset.sum_congr rfl fun k _ => congrArg₂ (· * ·) ?_ ?_) ?_
  · rw [patch_block]
    refine congrArg _ (funext fun a => Fin.ext ?_)
    match a with
    | ⟨0, _⟩ => show win0_0.index t (0 : Fin 2) * 832 + 1 * p.val = win0_3.index t (0 : Fin 2) * 832 + 1 * p.val; omega
    | ⟨1, _⟩ => show win0_0.index t (1 : Fin 2) * 2304 + 1 * k.val = k.val; omega
  · rw [weight_block]
    refine congrArg _ (funext fun a => Fin.ext ?_)
    match a with
    | ⟨0, _⟩ => show win0_1.index t (0 : Fin 2) * 2304 + 1 * k.val = k.val; omega
    | ⟨1, _⟩ => show win0_1.index t (1 : Fin 2) * 512 + 1 * q.val = win0_3.index t (1 : Fin 2) * 512 + 1 * q.val; omega
  · rw [bias_block]
    have hy : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 512 + 1 * q.val = q.val; omega)
    rw [hy, shapeCast_a_1a_apply]
    refine congrArg _ (funext fun a => Fin.ext ?_)
    match a with
    | ⟨0, _⟩ => show q.val = win0_3.index t (1 : Fin 2) * 512 + 1 * q.val; omega

/-! ## The blocks tile the array -/

theorem mem_blk (t : Fin cfg0.N) (i : S21632x512.Idx) :
    i ∈ ((cfg0.win 3).blk t).view.set ↔ ∀ a : Fin 2, win0_3.index t a * S832x512.size a ≤ (i a).val ∧ (i a).val < win0_3.index t a * S832x512.size a + S832x512.size a := by
  show i ∈ ((View.whole main_v32).slice (win0_3.rect t)).set ↔ _
  rw [View.set_slice_whole, Rect.mem_set_unit]
  exact Iff.rfl

/-- Row r of the result lies in the block of point r / 832, which is written back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 21632 := (i 0).isLt
  have hi1 : (i 1).val < 512 := (i 1).isLt
  obtain ⟨t, ht⟩ : ∃ t : Fin cfg0.N, t.val = (i 0).val / 832 :=
    ⟨⟨(i 0).val / 832, by rw [show cfg0.N = 26 from N_0]; omega⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 832 ≤ (i 0).val ∧ (i 0).val < win0_3.index t (0 : Fin 2) * 832 + 832; omega
  | ⟨1, _⟩ => show win0_3.index t (1 : Fin 2) * 512 ≤ (i 1).val ∧ (i 1).val < win0_3.index t (1 : Fin 2) * 512 + 512; omega

/-- The result array after the region. -/
theorem final (c : Dev nD) : (dats m 0 c).arrAt 3 cfg0.N = clamped m c :=
  (dats m 0 c).arrAt_eq_of_cover 3 (clamped m c) (fun t _ => flushed_eq m c t) (cover c)

/-! ## The operations after the region, and the run -/

/-- The program's result: the clamped matrix re-laid into image layout, which is the reference's result term. -/
theorem result_eq (c : Dev nD) :
    Pipeline.afterTail₀ cfgs (dats m) 0 (V0 m) [hostOps1] c main_v34
      = Cert.ReferenceIdeal.Read.val_main_v40 (F := Ideal) (m ((c : Thread nD τ).loc main_arg0)) (m ((c : Thread nD τ).loc main_arg1)) (m ((c : Thread nD τ).loc main_arg2)) := by
  have hw : Pipeline.withArrays spec0 c (V0 m c) (fun w => (dats m 0 c).arrAt w cfg0.N) (Proc.devRef .tc main_v32) = clamped m c :=
    (Pipeline.withArrays_arr spec0 launch0.win.arr_inj c _ _ 3).trans (final m c)
  unfold Pipeline.afterTail₀
  show StableHlo.after hostOps1 _ (Proc.devRef .tc main_v34) = _
  after_results
  rw [hw]
  rfl

/-- Every weakly fair execution of the idealized kernel's @main terminates with the result at the reference's result
    term of the kernel's own arguments, and the arguments unchanged. -/
theorem run : θ_run defs (onTc (τ := τ) (main (F := Ideal))) ⟨m, fun _ => 0, ρ⟩ (fun r => ∀ c : Dev nD,
      r.2.mem ((c.tc : Thread nD τ).loc main_v34)
        = Cert.ReferenceIdeal.Read.val_main_v40 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v34 (Pipeline.mem_restRefs_of main_v34 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KVal

end
-- ==== Proof.lean ====
/-
  An im2col convolution with int8-style requantisation, as one matrix product: the kernel against its jnp reference,
  equal over the extended reals.

  Both programs quantise the input (scale by 20, round to even, clamp to [-128, 127]), zero-pad it, stack its nine
  shifted copies, re-lay them into a 21632 × 2304 patch matrix and halve it: the same operations in the same order,
  so that matrix is one function of the input on both sides and is never opened. The reference then multiplies it
  by the 2304 × 512 weights, adds 8·bias, halves, rounds to even, clamps, and re-lays the 21632 × 512 result into
  image layout. The kernel rounds the patch matrix and the weights to bf16 (the identity on the extended reals) and
  computes the product block by block, 832 rows at each of 26 grid points, with the same epilogue fused in; the
  same two re-laying operations follow. Entry (r, j) of either matrix is therefore the epilogue of
  Σ_k patch(r, k) · weight(k, j) and bias(j): the matrix unit's product into a zero accumulator and the host's
  dot_general are the same finite sum, and no other law is needed, so the finiteness precondition is never used.

  The frames: no host operation of either kernel program writes an argument array and the region's windows are
  other arrays, so the arguments end as launched; the reference's frame is its run with the result dropped.
  The idealization rewrote nothing, so there is nothing to preserve.
-/
import proofs.«160808_j57483842290268_1_alg».proof.Defs
import proofs.«160808_j57483842290268_1_alg».proof.Proof.Gen.Kernel
import proofs.«160808_j57483842290268_1_alg».proof.Proof.Gen.KernelIdeal
import proofs.«160808_j57483842290268_1_alg».proof.Proof.Gen.ReferenceIdeal
import proofs.«160808_j57483842290268_1_alg».proof.Proof.Gen.Pre_finite_inputs
import proofs.«160808_j57483842290268_1_alg».proof.Proof.Gen.ReferenceIdeal.Run
import proofs.«160808_j57483842290268_1_alg».proof.Proof.Gen.ReferenceIdeal.Read
import proofs.«160808_j57483842290268_1_alg».proof.Proof.KernelFrame
import proofs.«160808_j57483842290268_1_alg».proof.Proof.KernelIdealFrame
import proofs.«160808_j57483842290268_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends with its result at the reference's result term of the kernel's arguments; the reference's run
    ends at the same term of its own arguments, which agree. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
